-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x3x224x224 : Shape := ⟨4, ![128, 3, 224, 224]⟩
abbrev S768x768 : Shape := ⟨2, ![768, 768]⟩
abbrev S768 : Shape := ⟨1, ![768]⟩
abbrev S1x768 : Shape := ⟨2, ![1, 768]⟩
abbrev S197x768 : Shape := ⟨2, ![197, 768]⟩
abbrev S_ : Shape := ⟨0, ![]⟩

class Facts : Prop where
  bcast_S_S128x3x224x224 : S_.BroadcastsInDim S128x3x224x224 (![] : Fin 0 → Fin S128x3x224x224.rank)
  reducesTo_S128x3x224x224_S_d0_1_2_3 : S128x3x224x224.ReducesTo [0, 1, 2, 3] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S1x768 : S_.BroadcastsInDim S1x768 (![] : Fin 0 → Fin S1x768.rank)
  reducesTo_S1x768_S_d0_1 : S1x768.ReducesTo [0, 1] S_
  bcast_S_S197x768 : S_.BroadcastsInDim S197x768 (![] : Fin 0 → Fin S197x768.rank)
  reducesTo_S197x768_S_d0_1 : S197x768.ReducesTo [0, 1] S_

variable [Facts]

def fn_part1 {F : FTy → Type} [FloatOps F] (main_arg4 : FVec F S197x768 .f32) (main_v13 : IVec S_ 1) (main_v16 : IVec S1x768 1) : IVec S_ 1 :=
  let main_c_5 : IVec S_ 1 := constantI S_ 1 1#1
  let main_v17 : IVec S_ 1 := (fun x v => Host.reduce IntOp.andi x v reducesTo_S1x768_S_d0_1 h_S_) main_v16 main_c_5
  let main_v18 : IVec S_ 1 := andi main_v13 main_v17
  let main_v19 : FVec F S197x768 .f32 := Host.absf main_arg4
  let main_cst_6 : FVec F S_ .f32 := constant S_ .f32 0x7F800000#32
  let main_v20 : FVec F S197x768 .f32 := broadcastInDim S197x768 ![] bcast_S_S197x768 main_cst_6
  let main_v21 : IVec S197x768 1 := cmpf .olt main_v19 main_v20
  let main_c_7 : IVec S_ 1 := constantI S_ 1 1#1
  let main_v22 : IVec S_ 1 := (fun x v => Host.reduce IntOp.andi x v reducesTo_S197x768_S_d0_1 h_S_) main_v21 main_c_7
  let main_v23 : IVec S_ 1 := andi main_v18 main_v22
  main_v23

def fn {F : FTy → Type} [FloatOps F] (main_arg0 : FVec F S128x3x224x224 .f32) (main_arg1 : FVec F S768x768 .f32) (main_arg2 : FVec F S768 .f32) (main_arg3 : FVec F S1x768 .f32) (main_arg4 : FVec F S197x768 .f32) : IVec S_ 1 :=
  let main_v0 : FVec F S128x3x224x224 .f32 := Host.absf main_arg0
  let main_cst : FVec F S_ .f32 := constant S_ .f32 0x7F800000#32
  let main_v1 : FVec F S128x3x224x224 .f32 := broadcastInDim S128x3x224x224 ![] bcast_S_S128x3x224x224 main_cst
  let main_v2 : IVec S128x3x224x224 1 := cmpf .olt main_v0 main_v1
  let main_c : IVec S_ 1 := constantI S_ 1 1#1
  let main_v3 : IVec S_ 1 := (fun x v => Host.reduce IntOp.andi x v reducesTo_S128x3x224x224_S_d0_1_2_3 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S1x768 .f32 := Host.absf main_arg3
  let main_cst_4 : FVec F S_ .f32 := constant S_ .f32 0x7F800000#32
  let main_v15 : FVec F S1x768 .f32 := broadcastInDim S1x768 ![] bcast_S_S1x768 main_cst_4
  let main_v16 : IVec S1x768 1 := cmpf .olt main_v14 main_v15
  fn_part1 (F := F) main_arg4 main_v13 main_v16
-- ==== Kernel.lean ====
abbrev S128x3x224x224 : Shape := ⟨4, ![128, 3, 224, 224]⟩
abbrev S768x768 : Shape := ⟨2, ![768, 768]⟩
abbrev S768 : Shape := ⟨1, ![768]⟩
abbrev S1x768 : Shape := ⟨2, ![1, 768]⟩
abbrev S197x768 : Shape := ⟨2, ![197, 768]⟩
abbrev S128x3x14x16x14x16 : Shape := ⟨6, ![128, 3, 14, 16, 14, 16]⟩
abbrev S128x14x14x3x16x16 : Shape := ⟨6, ![128, 14, 14, 3, 16, 16]⟩
abbrev S128x196x768 : Shape := ⟨3, ![128, 196, 768]⟩
abbrev S25088x768 : Shape := ⟨2, ![25088, 768]⟩
abbrev S1568x768 : Shape := ⟨2, ![1568, 768]⟩
abbrev S128x197x768 : Shape := ⟨3, ![128, 197, 768]⟩
abbrev S8x196x768 : Shape := ⟨3, ![8, 196, 768]⟩
abbrev S8x197x768 : Shape := ⟨3, ![8, 197, 768]⟩
abbrev S1x1x768 : Shape := ⟨3, ![1, 1, 768]⟩
abbrev S8x1x768 : Shape := ⟨3, ![8, 1, 768]⟩
abbrev S196x768 : Shape := ⟨2, ![196, 768]⟩
abbrev S1x196x768 : Shape := ⟨3, ![1, 196, 768]⟩

abbrev nBuf : Space → Nat
  | .hbm => 12
  | .vmem => 12
  | .smem => 0
  | _ => 0

abbrev bufTy : (tb : Table) → Fin (tcTables nBuf tb) → BufTy
  | .hbm, ⟨0, _⟩ => ⟨S128x3x224x224, .f32⟩
  | .hbm, ⟨1, _⟩ => ⟨S768x768, .f32⟩
  | .hbm, ⟨2, _⟩ => ⟨S768, .f32⟩
  | .hbm, ⟨3, _⟩ => ⟨S1x768, .f32⟩
  | .hbm, ⟨4, _⟩ => ⟨S197x768, .f32⟩
  | .hbm, ⟨5, _⟩ => ⟨S128x3x14x16x14x16, .f32⟩
  | .hbm, ⟨6, _⟩ => ⟨S128x14x14x3x16x16, .f32⟩
  | .hbm, ⟨7, _⟩ => ⟨S128x196x768, .f32⟩
  | .hbm, ⟨8, _⟩ => ⟨S25088x768, .f32⟩
  | .hbm, ⟨9, _⟩ => ⟨S25088x768, .f32⟩
  | .hbm, ⟨10, _⟩ => ⟨S128x196x768, .f32⟩
  | .hbm, ⟨11, _⟩ => ⟨S128x197x768, .f32⟩
  | .local _ .vmem, ⟨0, _⟩ => ⟨S1568x768, .f32⟩
  | .local _ .vmem, ⟨1, _⟩ => ⟨S1568x768, .f32⟩
  | .local _ .vmem, ⟨2, _⟩ => ⟨S768x768, .f32⟩
  | .local _ .vmem, ⟨3, _⟩ => ⟨S768, .f32⟩
  | .local _ .vmem, ⟨4, _⟩ => ⟨S1568x768, .f32⟩
  | .local _ .vmem, ⟨5, _⟩ => ⟨S1568x768, .f32⟩
  | .local _ .vmem, ⟨6, _⟩ => ⟨S8x196x768, .f32⟩
  | .local _ .vmem, ⟨7, _⟩ => ⟨S8x196x768, .f32⟩
  | .local _ .vmem, ⟨8, _⟩ => ⟨S1x768, .f32⟩
  | .local _ .vmem, ⟨9, _⟩ => ⟨S197x768, .f32⟩
  | .local _ .vmem, ⟨10, _⟩ => ⟨S8x197x768, .f32⟩
  | .local _ .vmem, ⟨11, _⟩ => ⟨S8x197x768, .f32⟩
  | _, _ => ⟨S128x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1568x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1568x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x196x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S197x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x197x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128x3x224x224_S128x3x14x16x14x16 : S128x3x224x224.ShapeCasts S128x3x14x16x14x16
  transposes_S128x3x14x16x14x16_S128x14x14x3x16x16_0_2_4_1_3_5 : S128x3x14x16x14x16.Transposes [0, 2, 4, 1, 3, 5] S128x14x14x3x16x16
  shapeCasts_S128x14x14x3x16x16_S128x196x768 : S128x14x14x3x16x16.ShapeCasts S128x196x768
  shapeCasts_S128x196x768_S25088x768 : S128x196x768.ShapeCasts S25088x768
  inb_S1568x768_S1568x768_0_0 : ∀ a, (![0, 0] : Fin 2 → Nat) a + S1568x768.size a ≤ S1568x768.size a
  h_S1568x768 : 0 < S1568x768.numel
  shapeCasts_S1568x768_S1568x768 : S1568x768.ShapeCasts S1568x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  transposes_S768x768_p1_0_S768x768 : S768x768.Transposes [1, 0] S768x768
  inb_S768_S768_0 : ∀ a, (![0] : Fin 1 → Nat) a + S768.size a ≤ S768.size a
  h_S768 : 0 < S768.numel
  shapeCasts_S768_S1x768 : S768.ShapeCasts S1x768
  shapeCasts_S1x768_S1x768 : S1x768.ShapeCasts S1x768
  broadcasts_S1x768_S1568x768 : S1x768.Broadcasts S1568x768
  shapeCasts_S25088x768_S128x196x768 : S25088x768.ShapeCasts S128x196x768
  inb_S8x196x768_S8x196x768_0_0_0 : ∀ a, (![0, 0, 0] : Fin 3 → Nat) a + S8x196x768.size a ≤ S8x196x768.size a
  h_S8x196x768 : 0 < S8x196x768.numel
  shapeCasts_S8x196x768_S8x196x768 : S8x196x768.ShapeCasts S8x196x768
  inb_S1x768_S1x768_0_0 : ∀ a, (![0, 0] : Fin 2 → Nat) a + S1x768.size a ≤ S1x768.size a
  h_S1x768 : 0 < S1x768.numel
  inb_S197x768_S197x768_0_0 : ∀ a, (![0, 0] : Fin 2 → Nat) a + S197x768.size a ≤ S197x768.size a
  h_S197x768 : 0 < S197x768.numel
  shapeCasts_S1x768_S1x1x768 : S1x768.ShapeCasts S1x1x768
  shapeCasts_S1x1x768_S1x1x768 : S1x1x768.ShapeCasts S1x1x768
  broadcasts_S1x1x768_S8x1x768 : S1x1x768.Broadcasts S8x1x768
  slices_S197x768_o0_0_S1x768 : S197x768.Slices ![0, 0] S1x768
  slices_S197x768_o1_0_S196x768 : S197x768.Slices ![1, 0] S196x768
  shapeCasts_S196x768_S1x196x768 : S196x768.ShapeCasts S1x196x768
  inb_S8x197x768_S8x1x768_0_0_0 : ∀ a, (![0, 0, 0] : Fin 3 → Nat) a + S8x1x768.size a ≤ S8x197x768.size a
  h_S8x1x768 : 0 < S8x1x768.numel
  broadcasts_S1x196x768_S8x196x768 : S1x196x768.Broadcasts S8x196x768
  inb_S8x197x768_S8x196x768_0_1_0 : ∀ a, (![0, 1, 0] : Fin 3 → Nat) a + S8x196x768.size a ≤ S8x197x768.size a
  dot_S1568x768_S768x768_S1568x768_1_0_0_1_n_n_wf : DotDims.WF S1568x768 S768x768 S1568x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1568x768.size a ≤ S25088x768.size a
  hwx0_0 : ∀ i : grid0.Coords, EltTy.bits .f32 = 32 ∨ (Rect.block (s := S25088x768) S1568x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1568x768.size a ≤ S25088x768.size a
  hwx0_3 : ∀ i : grid0.Coords, EltTy.bits .f32 = 32 ∨ (Rect.block (s := S25088x768) S1568x768.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x196x768.size a ≤ S128x196x768.size a
  hwx1_0 : ∀ i : grid1.Coords, EltTy.bits .f32 = 32 ∨ (Rect.block (s := S128x196x768) S8x196x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x768.size a ≤ S1x768.size a
  hwx1_1 : ∀ i : grid1.Coords, EltTy.bits .f32 = 32 ∨ (Rect.block (s := S1x768) S1x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S197x768.size a ≤ S197x768.size a
  hwx1_2 : ∀ i : grid1.Coords, EltTy.bits .f32 = 32 ∨ (Rect.block (s := S197x768) S197x768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x197x768.size a ≤ S128x197x768.size a
  hwx1_3 : ∀ i : grid1.Coords, EltTy.bits .f32 = 32 ∨ (Rect.block (s := S128x197x768) S8x197x768.size (cc1_transform_3 i) (hinb1_3 i)).WholeWords (EltTy.packing .f32)

variable [Facts₀]

def dot_S1568x768_S768x768_S1568x768_1_0_0_1_n_n : DotDims S1568x768 S768x768 S1568x768 where
  lhsContracting := [1]
  rhsContracting := [0]
  lhsNonContracting := [0]
  rhsNonContracting := [1]
  lhsBatch := []
  rhsBatch := []
  wf := dot_S1568x768_S768x768_S1568x768_1_0_0_1_n_n_wf

abbrev win0_0 : Pipeline.Window sig grid0 :=
  Pipeline.Window.ofSpec (Memref.whole main_v3) S1568x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1568x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S8x196x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S197x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S8x197x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S128x3x224x224 : Shape := ⟨4, ![128, 3, 224, 224]⟩
abbrev S768x768 : Shape := ⟨2, ![768, 768]⟩
abbrev S768 : Shape := ⟨1, ![768]⟩
abbrev S1x768 : Shape := ⟨2, ![1, 768]⟩
abbrev S197x768 : Shape := ⟨2, ![197, 768]⟩
abbrev S128x3x14x16x14x16 : Shape := ⟨6, ![128, 3, 14, 16, 14, 16]⟩
abbrev S128x14x14x3x16x16 : Shape := ⟨6, ![128, 14, 14, 3, 16, 16]⟩
abbrev S128x196x768 : Shape := ⟨3, ![128, 196, 768]⟩
abbrev S1x1x768 : Shape := ⟨3, ![1, 1, 768]⟩
abbrev S128x1x768 : Shape := ⟨3, ![128, 1, 768]⟩
abbrev S128x197x768 : Shape := ⟨3, ![128, 197, 768]⟩
abbrev S1x197x768 : Shape := ⟨3, ![1, 197, 768]⟩

abbrev nBuf : Space → Nat
  | .hbm => 18
  | .vmem => 0
  | .smem => 0
  | _ => 0

abbrev bufTy : (tb : Table) → Fin (tcTables nBuf tb) → BufTy
  | .hbm, ⟨0, _⟩ => ⟨S128x3x224x224, .f32⟩
  | .hbm, ⟨1, _⟩ => ⟨S768x768, .f32⟩
  | .hbm, ⟨2, _⟩ => ⟨S768, .f32⟩
  | .hbm, ⟨3, _⟩ => ⟨S1x768, .f32⟩
  | .hbm, ⟨4, _⟩ => ⟨S197x768, .f32⟩
  | .hbm, ⟨5, _⟩ => ⟨S128x3x14x16x14x16, .f32⟩
  | .hbm, ⟨6, _⟩ => ⟨S128x14x14x3x16x16, .f32⟩
  | .hbm, ⟨7, _⟩ => ⟨S128x196x768, .f32⟩
  | .hbm, ⟨8, _⟩ => ⟨S128x196x768, .f32⟩
  | .hbm, ⟨9, _⟩ => ⟨S1x1x768, .f32⟩
  | .hbm, ⟨10, _⟩ => ⟨S128x196x768, .f32⟩
  | .hbm, ⟨11, _⟩ => ⟨S128x196x768, .f32⟩
  | .hbm, ⟨12, _⟩ => ⟨S1x1x768, .f32⟩
  | .hbm, ⟨13, _⟩ => ⟨S128x1x768, .f32⟩
  | .hbm, ⟨14, _⟩ => ⟨S128x197x768, .f32⟩
  | .hbm, ⟨15, _⟩ => ⟨S1x197x768, .f32⟩
  | .hbm, ⟨16, _⟩ => ⟨S128x197x768, .f32⟩
  | .hbm, ⟨17, _⟩ => ⟨S128x197x768, .f32⟩
  | _, _ => ⟨S128x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S128x3x224x224_S128x3x14x16x14x16 : S128x3x224x224.ShapeCasts S128x3x14x16x14x16
  transposes_S128x3x14x16x14x16_S128x14x14x3x16x16_0_2_4_1_3_5 : S128x3x14x16x14x16.Transposes [0, 2, 4, 1, 3, 5] S128x14x14x3x16x16
  shapeCasts_S128x14x14x3x16x16_S128x196x768 : S128x14x14x3x16x16.ShapeCasts S128x196x768
  bcast_S768_S1x1x768_2 : S768.BroadcastsInDim S1x1x768 (![2] : Fin 1 → Fin S1x1x768.rank)
  bcast_S1x1x768_S128x196x768_0_1_2 : S1x1x768.BroadcastsInDim S128x196x768 (![0, 1, 2] : Fin 3 → Fin S128x196x768.rank)
  bcast_S1x768_S1x1x768_1_2 : S1x768.BroadcastsInDim S1x1x768 (![1, 2] : Fin 2 → Fin S1x1x768.rank)
  bcast_S1x1x768_S128x1x768_0_1_2 : S1x1x768.BroadcastsInDim S128x1x768 (![0, 1, 2] : Fin 3 → Fin S128x1x768.rank)
  concatenates_S128x1x768_S128x196x768_S128x197x768_d1 : Shape.Concatenates [S128x1x768, S128x196x768] S128x197x768 1
  bcast_S197x768_S1x197x768_1_2 : S197x768.BroadcastsInDim S1x197x768 (![1, 2] : Fin 2 → Fin S1x197x768.rank)
  bcast_S1x197x768_S128x197x768_0_1_2 : S1x197x768.BroadcastsInDim S128x197x768 (![0, 1, 2] : Fin 3 → Fin S128x197x768.rank)
  dot_S128x196x768_S768x768_S128x196x768_2_1_01_0_n_n_wf : DotDims.WF S128x196x768 S768x768 S128x196x768 [2] [1] [0, 1] [0] [] []

variable [Facts₀]

def dot_S128x196x768_S768x768_S128x196x768_2_1_01_0_n_n : DotDims S128x196x768 S768x768 S128x196x768 where
  lhsContracting := [2]
  rhsContracting := [1]
  lhsNonContracting := [0, 1]
  rhsNonContracting := [0]
  lhsBatch := []
  rhsBatch := []
  wf := dot_S128x196x768_S768x768_S128x196x768_2_1_01_0_n_n_wf

class Facts : Prop extends Facts₀ where

variable [Facts]
-- ==== Proof.PatchEmbed.lean ====
/-
  A vision transformer's patch embedding, as one function of its five arrays.

  The images, cut into 14 x 14 patches of 3 x 16 x 16 values each, arrive here already laid out as `P : [128, 196, 768]`
  (image, patch, value inside the patch). Patch `p` of image `n` becomes the token

      token n p h = (∑ k, P[n, p, k] · W[h, k]) + b[h],

  the sequence of an image is the class token followed by its 196 patch tokens, and the positional embedding is
  added to every row of the sequence:

      embed[n, 0, h]     = cls[0, h]      + pos[0, h]
      embed[n, s + 1, h] = token n s h    + pos[s + 1, h].

  Everything is read on the extended reals; no law beyond reading layout operations at an index is used, so no
  entry needs to be finite.
-/
import Idealize.ShloMosaic.PureOps.Ideal
import Idealize.ShloMosaic.PureOps.Ideal.Laws
import Idealize.ShloMosaic.Lib.ValueIdx
import Idealize.ShloMosaic.Lib.Pipeline.Value

noncomputable section

namespace Cert.PatchEmbed

open Idealize.ShloMosaic Idealize.ShloMosaic.ValueIdx

/-- Patches: image, patch, value inside the patch. -/
abbrev Spatch : Shape := ⟨3, ![128, 196, 768]⟩
/-- The same rows with image and patch flattened into one axis: row `196 n + p`. -/
abbrev Sflat : Shape := ⟨2, ![25088, 768]⟩
abbrev Sweight : Shape := ⟨2, ![768, 768]⟩
abbrev Sbias : Shape := ⟨1, ![768]⟩
abbrev Scls : Shape := ⟨2, ![1, 768]⟩
abbrev Spos : Shape := ⟨2, ![197, 768]⟩
/-- The sequences: image, position (0 the class token), hidden coordinate. -/
abbrev Sseq : Shape := ⟨3, ![128, 197, 768]⟩

/-- The linear projection of patch `p` of image `n`, at hidden coordinate `h`. -/
def token (P : FVec Ideal Spatch .f32) (W : FVec Ideal Sweight .f32) (b : FVec Ideal Sbias .f32)
    (n : Fin 128) (p : Fin 196) (h : Fin 768) : EReal :=
  (∑ k : Fin 768, P (ix3 n p k) * W (ix2 h k)) + b (ix1 h)

/-- The projection of the flattened rows: row `r` against row `h` of the weight, plus the bias. -/
def project (X : FVec Ideal Sflat .f32) (W : FVec Ideal Sweight .f32) (b : FVec Ideal Sbias .f32) : FVec Ideal Sflat .f32 :=
  fun j => (∑ k : Fin 768, X (ix2 ⟨(j 0).val, (j 0).isLt⟩ k) * W (ix2 ⟨(j 1).val, (j 1).isLt⟩ k)) + b (ix1 ⟨(j 1).val, (j 1).isLt⟩)

/-- The sequences assembled from the tokens `T`: the class token in front, the positional embedding added to each row
    (row 0 of it to the class token, row `s + 1` to token `s`). -/
def assemble (T : FVec Ideal Spatch .f32) (cls : FVec Ideal Scls .f32) (pos : FVec Ideal Spos .f32) : FVec Ideal Sseq .f32 :=
  fun i =>
    if _ : (i 1).val = 0 then cls (ix2 ⟨0, Nat.one_pos⟩ ⟨(i 2).val, (i 2).isLt⟩) + pos (ix2 ⟨0, by decide⟩ ⟨(i 2).val, (i 2).isLt⟩)
    else T (ix3 ⟨(i 0).val, (i 0).isLt⟩ ⟨(i 1).val - 1, by have h : (i 1).val < 197 := (i 1).isLt; omega⟩ ⟨(i 2).val, (i 2).isLt⟩)
      + pos (ix2 ⟨(i 1).val, (i 1).isLt⟩ ⟨(i 2).val, (i 2).isLt⟩)

/-- The patch embedding: prepend the class token to the projected patches, then add the positional embedding. -/
def embed (P : FVec Ideal Spatch .f32) (W : FVec Ideal Sweight .f32) (b : FVec Ideal Sbias .f32)
    (cls : FVec Ideal Scls .f32) (pos : FVec Ideal Spos .f32) : FVec Ideal Sseq .f32 :=
  fun i =>
    (if _ : (i 1).val = 0 then cls (ix2 ⟨0, Nat.one_pos⟩ ⟨(i 2).val, (i 2).isLt⟩)
     else token P W b ⟨(i 0).val, (i 0).isLt⟩ ⟨(i 1).val - 1, by have h : (i 1).val < 197 := (i 1).isLt; omega⟩ ⟨(i 2).val, (i 2).isLt⟩)
      + pos (ix2 ⟨(i 1).val, (i 1).isLt⟩ ⟨(i 2).val, (i 2).isLt⟩)

/-- Flattening image and patch into one row index and back changes nothing: the tokens of the flattened rows, viewed
    again as [image, patch, hidden] and assembled, are the patch embedding. Row `196 n + p` of the flattened patches is
    patch `p` of image `n`, and so is row `196 n + p` of the flattened tokens. -/
theorem assemble_project (P : FVec Ideal Spatch .f32) (W : FVec Ideal Sweight .f32) (b : FVec Ideal Sbias .f32)
    (cls : FVec Ideal Scls .f32) (pos : FVec Ideal Spos .f32) (h1 : Spatch.ShapeCasts Sflat) (h2 : Sflat.ShapeCasts Spatch) :
    assemble (shapeCast Spatch (project (shapeCast Sflat P h1) W b) h2) cls pos = embed P W b cls pos := by
  funext i
  unfold assemble embed
  by_cases h0 : (i 1).val = 0
  · rw [dif_pos h0, dif_pos h0]
    exact congrArg (cls _ + pos ·) (funext fun a => Fin.ext (by match a with | ⟨0, _⟩ => exact h0.symm | ⟨1, _⟩ => rfl))
  · rw [dif_neg h0, dif_neg h0]
    refine congrArg (· + pos _) ?_
    have hi0 : (i 0).val < 128 := (i 0).isLt
    have hi1 : (i 1).val < 197 := (i 1).isLt
    have hi2 : (i 2).val < 768 := (i 2).isLt
    -- the token array at (n, p, h) is the flattened one at (196 n + p, h)
    refine (shapeCast_apply _ h2 _ (ix2 ⟨(i 0).val * 196 + ((i 1).val - 1), by omega⟩ ⟨(i 2).val, hi2⟩) ?_).trans ?_
    · rw [Shape.rowMajor_val_two, Shape.rowMajor_val_three]; rfl
    unfold project token
    refine congrArg (· + b _) (Finset.sum_congr rfl fun k _ => congrArg (· * W _) ?_)
    -- the flattened patches at (196 n + p, k) are the patches at (n, p, k)
    refine shapeCast_apply _ h1 _ _ ?_
    rw [Shape.rowMajor_val_two, Shape.rowMajor_val_three]; rfl

end Cert.PatchEmbed

end
-- ==== Proof.Projection.lean ====
/-
  The first kernel region: the linear projection of the flattened patch rows.

  The grid has 16 points; point `t` takes rows `1568 t … 1568 t + 1567` of the flattened patches `X : [25088, 768]`, the whole
  weight `W : [768, 768]` and the whole bias, and stores, for each of its rows `r` and each hidden coordinate `h`,

      (∑ k, X[1568 t + r, k] · W[h, k]) + b[h]:

  the contraction runs over the patch's 768 values against ROW `h` of the weight (the body transposes the weight before
  its product, and a transposed matrix read at (k, h) is the matrix at (h, k)); the narrowing of both factors to a
  shorter float format is the identity on the extended reals, and the product starts from a zero accumulator. The 16
  row blocks tile the output, so the array ends at that function of the whole arrays at every index.
-/
import proofs.«168539_j32762010534327_1_alg».proof.Proof.Gen.KernelIdeal.Frame
import proofs.«168539_j32762010534327_1_alg».proof.Proof.PatchEmbed
import Idealize.ShloMosaic.Lib.Pipeline.Value
import Idealize.ShloMosaic.Lib.ValueIdx
import Idealize.ShloMosaic.PureOps.Ideal.Laws

set_option maxRecDepth 16384

noncomputable section

namespace Cert.KernelIdeal.Projection

open Cert.KernelIdeal Cert.KernelIdeal.Gen
open Idealize.ShloMosaic Idealize.ShloMosaic.TcCoe Idealize.ShloMosaic.ValueIdx Idealize.SL.Sem
open Idealize.ShloMosaic.Pipeline (Dat)
open Cert.PatchEmbed

/-! ## The product's operand indices, axis by axis -/

/-- The left operand is read at the output's row. -/
theorem lhs_row (i : S1568x768.Idx) (q : dot_S1568x768_S768x768_S1568x768_1_0_0_1_n_n.contr.Idx) :
    (dot_S1568x768_S768x768_S1568x768_1_0_0_1_n_n.lhsIdx i q 0).val = (i 0).val := by
  unfold DotDims.lhsIdx
  rw [dif_neg (show ¬(0 : Fin S1568x768.rank) ∈ dot_S1568x768_S768x768_S1568x768_1_0_0_1_n_n.lhsBatch by decide), dif_pos (show (0 : Fin S1568x768.rank) ∈ dot_S1568x768_S768x768_S1568x768_1_0_0_1_n_n.lhsNonContracting by decide)]
  rfl
/-- The left operand's column is the contracted coordinate. -/
theorem lhs_contr (i : S1568x768.Idx) (q : dot_S1568x768_S768x768_S1568x768_1_0_0_1_n_n.contr.Idx) :
    (dot_S1568x768_S768x768_S1568x768_1_0_0_1_n_n.lhsIdx i q 1).val = (q ⟨0, by decide⟩).val :=
  dot_S1568x768_S768x768_S1568x768_1_0_0_1_n_n.lhsIdx_val_of_single rfl i q
/-- The right operand's row is the contracted coordinate. -/
theorem rhs_contr (i : S1568x768.Idx) (q : dot_S1568x768_S768x768_S1568x768_1_0_0_1_n_n.contr.Idx) :
    (dot_S1568x768_S768x768_S1568x768_1_0_0_1_n_n.rhsIdx i q 0).val = (q ⟨0, by decide⟩).val :=
  dot_S1568x768_S768x768_S1568x768_1_0_0_1_n_n.rhsIdx_val_of_single rfl i q
/-- The right operand is read at the output's column. -/
theorem rhs_col (i : S1568x768.Idx) (q : dot_S1568x768_S768x768_S1568x768_1_0_0_1_n_n.contr.Idx) :
    (dot_S1568x768_S768x768_S1568x768_1_0_0_1_n_n.rhsIdx i q 1).val = (i 1).val := by
  unfold DotDims.rhsIdx
  rw [dif_neg (show ¬(1 : Fin S768x768.rank) ∈ dot_S1568x768_S768x768_S1568x768_1_0_0_1_n_n.rhsBatch by decide), dif_pos (show (1 : Fin S768x768.rank) ∈ dot_S1568x768_S768x768_S1568x768_1_0_0_1_n_n.rhsNonContracting by decide)]
  rfl

/-! ## The body's stored value at an entry -/

/-- The product of `a` with the TRANSPOSE of `w`, from a zero accumulator, at (r, h): row `r` of `a` against row `h` of `w`. -/
theorem matmul_transposed_apply (a : FVec Ideal S1568x768 .bf16) (w : FVec Ideal S768x768 .bf16) (r : Fin 1568) (h : Fin 768) :
    matmul dot_S1568x768_S768x768_S1568x768_1_0_0_1_n_n none a (transpose S768x768 [1, 0] w transposes_S768x768_p1_0_S768x768)
        (constant S1568x768 .f32 0x00000000#32) (ix2 r h)
      = ∑ k : Fin 768, a (ix2 r k) * w (ix2 h k) := by
  refine (Ideal.matmul_constant_zero_apply dot_S1568x768_S768x768_S1568x768_1_0_0_1_n_n none a (transpose S768x768 [1, 0] w transposes_S768x768_p1_0_S768x768) (ix2 r h)).trans ?_
  rw [← Equiv.sum_comp (ValueIdx.contrEquiv1 dot_S1568x768_S768x768_S1568x768_1_0_0_1_n_n 768 rfl rfl).symm]
  refine Finset.sum_congr rfl fun k _ => ?_
  have hk := ValueIdx.contrEquiv1_symm_val dot_S1568x768_S768x768_S1568x768_1_0_0_1_n_n 768 rfl rfl k
  have el : dot_S1568x768_S768x768_S1568x768_1_0_0_1_n_n.lhsIdx (ix2 r h) ((ValueIdx.contrEquiv1 dot_S1568x768_S768x768_S1568x768_1_0_0_1_n_n 768 rfl rfl).symm k) = ix2 r k := funext fun a => Fin.ext (by
    match a with
    | ⟨0, _⟩ => exact lhs_row _ _
    | ⟨1, _⟩ => exact (lhs_contr _ _).trans hk)
  rw [el]
  refine congrArg (a (ix2 r k) * ·) ?_
  refine transpose_apply [1, 0] w transposes_S768x768_p1_0_S768x768 _ (ix2 h k) (fun b => ?_)
  match b with
  | ⟨0, _⟩ => show k.val = _; exact ((rhs_contr (ix2 r h) _).trans hk).symm
  | ⟨1, _⟩ => show h.val = _; exact (rhs_col (ix2 r h) _).symm

/-- The bias, viewed as one row and repeated down the 1568 rows, at (r, h). -/
theorem bias_rows_apply (x2 : Vec Ideal S768 .f32) (r : Fin 1568) (h : Fin 768) :
    broadcastTo S1568x768 (shapeCast S1x768 (shapeCast S1x768 x2 shapeCasts_S768_S1x768) shapeCasts_S1x768_S1x768)
        broadcasts_S1x768_S1568x768 (ix2 r h) = x2 (ix1 h) := by
  rw [shapeCast_self]
  refine (broadcastTo_apply _ _ _ (ix2 ⟨0, Nat.one_pos⟩ h) (fun a => ?_)).trans ?_
  · match a with
    | ⟨0, _⟩ => rfl
    | ⟨1, _⟩ => rfl
  refine shapeCast_apply _ _ _ (ix1 h) ?_
  rw [Shape.rowMajor_val_one, Shape.rowMajor_val_two]
  show h.val = 0 * 768 + h.val
  omega

/-- What the body stores, at (r, h), from the three blocks it loads. -/
theorem stored_apply (x0 : Vec Ideal S1568x768 .f32) (x1 : Vec Ideal S768x768 .f32) (x2 : Vec Ideal S768 .f32) (r : Fin 1568) (h : Fin 768) :
    k0_pay1 (F := Ideal) x0 x1 x2 (ix2 r h) = (∑ k : Fin 768, x0 (ix2 r k) * x1 (ix2 h k)) + x2 (ix1 h) := by
  unfold k0_pay1
  refine (congr (congrArg HAdd.hAdd (matmul_transposed_apply _ _ r h)) (bias_rows_apply x2 r h)).trans ?_
  rw [shapeCast_self]
  rfl

/-! ## From the sixteen row blocks to the whole array -/

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The block index of each window at grid point `t`: the patch rows and the output move with `t` along the rows, the
    weight and the bias stay at block 0. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is its row block of the projection of the arrays the region found. -/
theorem flushed_eq (c : Dev nD) (t : Fin cfg0.N) :
    (dat0 V c).flushed 3 t
      = ((cfg0.win 3).blk t).view.read (Elt Ideal) (project (V c main_v3) (V c main_arg1) (V c main_arg2)) := by
  show (cfg0.win 3).cut (grid0.coords t) ((dat0 V c).after 3 t) = _
  rw [after0_3]
  unfold out0_3
  rw [View.canon_unit_zero zeros2]
  simp only [View.ld_unit_zero (S := S1568x768) zeros2, View.ld_unit_zero (S := S768x768) zeros2, View.ld_unit_zero (S := S768) zeros1]
  obtain ⟨e0, e1, e2, e3, e4, e5, e6⟩ := block_indices t
  funext j
  have hj0 : (j 0).val < 1568 := (j 0).isLt
  have hj1 : (j 1).val < 768 := (j 1).isLt
  have ej : j = ix2 ⟨(j 0).val, hj0⟩ ⟨(j 1).val, hj1⟩ :=
    funext fun a => Fin.ext (by match a with | ⟨0, _⟩ => rfl | ⟨1, _⟩ => rfl)
  show k0_pay1 (iblk0 V c 0 t) (iblk0 V c 1 t) (iblk0 V c 2 t) j
    = project (V c main_v3) (V c main_arg1) (V c main_arg2) (((cfg0.win 3).blk t).view.emb j)
  refine (congrArg (k0_pay1 (iblk0 V c 0 t) (iblk0 V c 1 t) (iblk0 V c 2 t)) ej).trans ?_
  refine (stored_apply (iblk0 V c 0 t) (iblk0 V c 1 t) (iblk0 V c 2 t) ⟨(j 0).val, hj0⟩ ⟨(j 1).val, hj1⟩).trans ?_
  unfold project
  refine congr (congrArg HAdd.hAdd (Finset.sum_congr rfl fun k _ => congr (congrArg HMul.hMul ?_) ?_)) ?_
  · -- row r of the patch block at t is row 1568 t + r of the array
    show V c main_v3 (((cfg0.win 0).blk t).view.emb (ix2 ⟨(j 0).val, hj0⟩ k)) = _
    refine congrArg (V c main_v3) (funext fun a => Fin.ext ?_)
    match a with
    | ⟨0, _⟩ =>
      show win0_0.index t (0 : Fin 2) * 1568 + 1 * (j 0).val = win0_3.index t (0 : Fin 2) * 1568 + 1 * (j 0).val
      omega
    | ⟨1, _⟩ =>
      show win0_0.index t (1 : Fin 2) * 768 + 1 * k.val = k.val
      omega
  · -- the weight's one block is the weight
    show V c main_arg1 (((cfg0.win 1).blk t).view.emb (ix2 ⟨(j 1).val, hj1⟩ k)) = _
    refine congrArg (V c main_arg1) (funext fun a => Fin.ext ?_)
    match a with
    | ⟨0, _⟩ =>
      show win0_1.index t (0 : Fin 2) * 768 + 1 * (j 1).val = win0_3.index t (1 : Fin 2) * 768 + 1 * (j 1).val
      omega
    | ⟨1, _⟩ =>
      show win0_1.index t (1 : Fin 2) * 768 + 1 * k.val = k.val
      omega
  · -- the bias's one block is the bias
    show V c main_arg2 (((cfg0.win 2).blk t).view.emb (ix1 ⟨(j 1).val, hj1⟩)) = _
    refine congrArg (V c main_arg2) (funext fun a => Fin.ext ?_)
    match a with
    | ⟨0, _⟩ =>
      show win0_2.index t (0 : Fin 1) * 768 + 1 * (j 1).val = win0_3.index t (1 : Fin 2) * 768 + 1 * (j 1).val
      omega

/-- An index of the output array is in point `t`'s block iff each coordinate is in the block's range on its axis. -/
theorem mem_block (t : Fin cfg0.N) (i : S25088x768.Idx) :
    i ∈ ((cfg0.win 3).blk t).view.set ↔ ∀ a : Fin 2, win0_3.index t a * S1568x768.size a ≤ (i a).val
      ∧ (i a).val < win0_3.index t a * S1568x768.size a + S1568x768.size a := by
  show i ∈ ((View.whole main_v4).slice (win0_3.rect t)).set ↔ _
  rw [View.set_slice_whole, Rect.mem_set_unit]
  exact Iff.rfl

/-- Row `R` of the output lies in the block of point `R / 1568`. -/
theorem covered (i : S25088x768.Idx) :
    ∃ t : Fin cfg0.N, (cfg0.win 3).flush t = true ∧ i ∈ ((cfg0.win 3).blk t).view.set := by
  have hi0 : (i 0).val < 25088 := (i 0).isLt
  have hi1 : (i 1).val < 768 := (i 1).isLt
  have hq : (i 0).val / 1568 < cfg0.N := by rw [show cfg0.N = 16 from N_0]; omega
  obtain ⟨-, -, -, -, -, e5, e6⟩ := block_indices ⟨(i 0).val / 1568, hq⟩
  have e5' : win0_3.index ⟨(i 0).val / 1568, hq⟩ (0 : Fin 2) = (i 0).val / 1568 := e5
  refine ⟨⟨(i 0).val / 1568, hq⟩, flush0_3 _, ?_⟩
  rw [mem_block]
  intro a
  match a with
  | ⟨0, _⟩ =>
    show win0_3.index ⟨(i 0).val / 1568, hq⟩ (0 : Fin 2) * 1568 ≤ (i 0).val
      ∧ (i 0).val < win0_3.index ⟨(i 0).val / 1568, hq⟩ (0 : Fin 2) * 1568 + 1568
    omega
  | ⟨1, _⟩ =>
    show win0_3.index ⟨(i 0).val / 1568, hq⟩ (1 : Fin 2) * 768 ≤ (i 1).val
      ∧ (i 1).val < win0_3.index ⟨(i 0).val / 1568, hq⟩ (1 : Fin 2) * 768 + 768
    omega

/-- THE OUTPUT ARRAY after the region: the projection of the three arrays the region found. -/
theorem projected (c : Dev nD) :
    (dat0 V c).arrAt 3 cfg0.N = project (V c main_v3) (V c main_arg1) (V c main_arg2) :=
  (dat0 V c).arrAt_eq_of_cover 3 _ (fun t _ => flushed_eq V c t) covered

end Cert.KernelIdeal.Projection

end
-- ==== Proof.Assembly.lean ====
/-
  The second kernel region: the sequences assembled from the tokens.

  The grid has 16 points; point `t` takes the tokens of images `8 t … 8 t + 7` (`T : [128, 196, 768]`), the class token
  and the whole positional embedding, and fills its block of the output `[8, 197, 768]` by two stores: position 0 of
  every image gets `cls[0, h] + pos[0, h]` (the class token and row 0 of the embedding, each repeated over the eight
  images), and positions 1 … 196 get `T[n, s - 1, h] + pos[s, h]` (rows 1 … 196 of the embedding repeated over the
  images). The two stores tile the block, the 16 blocks tile the output, so the array ends at `assemble` of the whole
  arrays at every index.
-/
import proofs.«168539_j32762010534327_1_alg».proof.Proof.Gen.KernelIdeal.Frame
import proofs.«168539_j32762010534327_1_alg».proof.Proof.PatchEmbed
import Idealize.ShloMosaic.Lib.Pipeline.Value
import Idealize.ShloMosaic.Lib.ValueIdx

set_option maxRecDepth 16384

noncomputable section

namespace Cert.KernelIdeal.Assembly

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)
open Cert.PatchEmbed

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## The two stored values at an entry -/

/-- The first store, at image `a`, position 0: the class token plus row 0 of the positional embedding. -/
theorem class_row_apply (x1 : Vec Ideal S1x768 .f32) (x2 : Vec Ideal S197x768 .f32) (a : Fin 8) (h : Fin 768) :
    k1_pay1 (F := Ideal) x1 x2 (ix3 a ⟨0, Nat.one_pos⟩ h) = x1 (ix2 ⟨0, Nat.one_pos⟩ h) + x2 (ix2 ⟨0, by decide⟩ h) := by
  unfold k1_pay1
  refine congr (congrArg HAdd.hAdd ?_) ?_
  · -- the class token as [1, 1, 768], repeated over the eight images
    refine (broadcastTo_apply _ _ _ (ix3 ⟨0, Nat.one_pos⟩ ⟨0, Nat.one_pos⟩ h) (fun b => ?_)).trans ?_
    · match b with
      | ⟨0, _⟩ => rfl
      | ⟨1, _⟩ => rfl
      | ⟨2, _⟩ => rfl
    rw [shapeCast_self]
    refine shapeCast_apply _ _ _ (ix2 ⟨0, Nat.one_pos⟩ h) ?_
    rw [Shape.rowMajor_val_two, Shape.rowMajor_val_three]
    rfl
  · -- row 0 of the embedding as [1, 1, 768], repeated over the eight images
    refine (broadcastTo_apply _ _ _ (ix3 ⟨0, Nat.one_pos⟩ ⟨0, Nat.one_pos⟩ h) (fun b => ?_)).trans ?_
    · match b with
      | ⟨0, _⟩ => rfl
      | ⟨1, _⟩ => rfl
      | ⟨2, _⟩ => rfl
    refine (shapeCast_apply _ _ _ (ix2 ⟨0, Nat.one_pos⟩ h) ?_).trans ?_
    · rw [Shape.rowMajor_val_two, Shape.rowMajor_val_three]
      rfl
    refine extractStridedSlice_apply _ x2 _ _ (ix2 ⟨0, by decide⟩ h) (fun b => ?_)
    match b with
    | ⟨0, _⟩ => rfl
    | ⟨1, _⟩ => show h.val = 0 + h.val; omega

/-- The second store, at image `a`, token `p`: the token plus row `p + 1` of the positional embedding. -/
theorem token_rows_apply (x0 : Vec Ideal S8x196x768 .f32) (x2 : Vec Ideal S197x768 .f32) (a : Fin 8) (p : Fin 196) (h : Fin 768) :
    k1_pay2 (F := Ideal) x0 x2 (ix3 a p h) = x0 (ix3 a p h) + x2 (ix2 ⟨p.val + 1, by omega⟩ h) := by
  unfold k1_pay2
  refine congr (congrArg HAdd.hAdd ?_) ?_
  · rw [shapeCast_self]
  · -- rows 1 … 196 of the embedding as [1, 196, 768], repeated over the eight images
    refine (broadcastTo_apply _ _ _ (ix3 ⟨0, Nat.one_pos⟩ p h) (fun b => ?_)).trans ?_
    · match b with
      | ⟨0, _⟩ => rfl
      | ⟨1, _⟩ => rfl
      | ⟨2, _⟩ => rfl
    refine (shapeCast_apply _ _ _ (ix2 p h) ?_).trans ?_
    · rw [Shape.rowMajor_val_two, Shape.rowMajor_val_three]
      show p.val * 768 + h.val = (0 * 196 + p.val) * 768 + h.val
      omega
    refine extractStridedSlice_apply _ x2 _ _ (ix2 ⟨p.val + 1, by omega⟩ h) (fun b => ?_)
    match b with
    | ⟨0, _⟩ => show p.val + 1 = 1 + p.val; omega
    | ⟨1, _⟩ => show h.val = 0 + h.val; omega

/-! ## The block the body leaves: its two stores as pieces -/

variable {F : FTy → Type} [FloatOps F]

/-- What the body's run leaves in the output block, whatever memrefs it ran on: the later store (positions 1 … 196)
    over the earlier one (position 0), each store's value a function of the loaded blocks alone. -/
theorem block_pieces (c : Dev nD) (i : grid1.Coords) (arg1 : Memref sig .tc .vmem S8x196x768 .f32) (harg1 : arg1.IsWhole)
    (arg2 : Memref sig .tc .vmem S1x768 .f32) (harg2 : arg2.IsWhole) (arg3 : Memref sig .tc .vmem S197x768 .f32) (harg3 : arg3.IsWhole)
    (arg4 : Memref sig .tc .vmem S8x197x768 .f32) (harg4 : arg4.IsWhole)
    (x0 : Vec F S8x196x768 .f32) (x1 : Vec F S1x768 .f32) (x2 : Vec F S197x768 .f32) :
    out1_A_3 c i arg1 harg1 arg2 harg2 arg3 harg3 arg4 harg4 x0 x1 x2
      = View.canon [⟨Rect.unit (s := S8x197x768) ![0, 1, 0] S8x196x768.size inb_S8x197x768_S8x196x768_0_1_0, k1_pay2 x0 x2⟩,
          ⟨Rect.unit (s := S8x197x768) ![0, 0, 0] S8x1x768.size inb_S8x197x768_S8x1x768_0_0_0, k1_pay1 x1 x2⟩] := by
  unfold out1_A_3
  rw [View.read_writes_eq_canon _ _ _ (cover1_A_3 c i arg1 harg1 arg2 harg2 arg3 harg3 arg4 harg4 x0 x1 x2)]
  unfold kernelRun1_A
  dsimp only
  sl_unfold_words
  simp only [View.readAt_eq_ld, harg1.read_unread, harg2.read_unread, harg3.read_unread,
    View.ld_unit_zero (S := S8x196x768) zeros3, View.ld_unit_zero (S := S1x768) zeros2, View.ld_unit_zero (S := S197x768) zeros2]

/-! ## The block at an entry -/

/-- The rows of the second store: positions 1 … 196 of the eight images. -/
abbrev rowsRect : Rect S8x197x768 := Rect.unit (s := S8x197x768) ![0, 1, 0] S8x196x768.size inb_S8x197x768_S8x196x768_0_1_0
/-- The rows of the first store: position 0 of the eight images. -/
abbrev headRect : Rect S8x197x768 := Rect.unit (s := S8x197x768) ![0, 0, 0] S8x1x768.size inb_S8x197x768_S8x1x768_0_0_0

/-- The block of eight images as one function of the three loaded blocks. -/
def blockOf (x0 : Vec Ideal S8x196x768 .f32) (x1 : Vec Ideal S1x768 .f32) (x2 : Vec Ideal S197x768 .f32) : Vec Ideal S8x197x768 .f32 :=
  fun y =>
    if _ : (y 1).val = 0 then x1 (ix2 ⟨0, Nat.one_pos⟩ ⟨(y 2).val, (y 2).isLt⟩) + x2 (ix2 ⟨0, by decide⟩ ⟨(y 2).val, (y 2).isLt⟩)
    else x0 (ix3 ⟨(y 0).val, (y 0).isLt⟩ ⟨(y 1).val - 1, by have h : (y 1).val < 197 := (y 1).isLt; omega⟩ ⟨(y 2).val, (y 2).isLt⟩)
      + x2 (ix2 ⟨(y 1).val, (y 1).isLt⟩ ⟨(y 2).val, (y 2).isLt⟩)

/-- The second store's value is that function under its rows, -/
theorem rows_piece (x0 : Vec Ideal S8x196x768 .f32) (x1 : Vec Ideal S1x768 .f32) (x2 : Vec Ideal S197x768 .f32) (x : S8x196x768.Idx) :
    k1_pay2 (F := Ideal) x0 x2 x = blockOf x0 x1 x2 (rowsRect.emb x) := by
  have hx0 : (x 0).val < 8 := (x 0).isLt
  have hx1 : (x 1).val < 196 := (x 1).isLt
  have hx2 : (x 2).val < 768 := (x 2).isLt
  have ex : x = ix3 ⟨(x 0).val, hx0⟩ ⟨(x 1).val, hx1⟩ ⟨(x 2).val, hx2⟩ :=
    funext fun a => Fin.ext (by match a with | ⟨0, _⟩ => rfl | ⟨1, _⟩ => rfl | ⟨2, _⟩ => rfl)
  have e1 : ((rowsRect.emb x) 1).val = 1 + 1 * (x 1).val := rfl
  refine (congrArg (k1_pay2 (F := Ideal) x0 x2) ex).trans ?_
  refine (token_rows_apply x0 x2 ⟨(x 0).val, hx0⟩ ⟨(x 1).val, hx1⟩ ⟨(x 2).val, hx2⟩).trans ?_
  unfold blockOf
  rw [dif_neg (by rw [e1]; omega)]
  refine congr (congrArg HAdd.hAdd (congrArg x0 (funext fun a => Fin.ext ?_))) (congrArg x2 (funext fun a => Fin.ext ?_))
  · match a with
    | ⟨0, _⟩ => show (x 0).val = 0 + 1 * (x 0).val; omega
    | ⟨1, _⟩ => show (x 1).val = 1 + 1 * (x 1).val - 1; omega
    | ⟨2, _⟩ => show (x 2).val = 0 + 1 * (x 2).val; omega
  · match a with
    | ⟨0, _⟩ => show (x 1).val + 1 = 1 + 1 * (x 1).val; omega
    | ⟨1, _⟩ => show (x 2).val = 0 + 1 * (x 2).val; omega

/-- and the first store's value is that function under its row. -/
theorem head_piece (x0 : Vec Ideal S8x196x768 .f32) (x1 : Vec Ideal S1x768 .f32) (x2 : Vec Ideal S197x768 .f32) (x : S8x1x768.Idx) :
    k1_pay1 (F := Ideal) x1 x2 x = blockOf x0 x1 x2 (headRect.emb x) := by
  have hx0 : (x 0).val < 8 := (x 0).isLt
  have hx1 : (x 1).val < 1 := (x 1).isLt
  have hx2 : (x 2).val < 768 := (x 2).isLt
  have ex : x = ix3 ⟨(x 0).val, hx0⟩ ⟨0, Nat.one_pos⟩ ⟨(x 2).val, hx2⟩ :=
    funext fun a => Fin.ext (by
      match a with
      | ⟨0, _⟩ => rfl
      | ⟨1, _⟩ => show (x 1).val = 0; omega
      | ⟨2, _⟩ => rfl)
  have e1 : ((headRect.emb x) 1).val = 0 + 1 * (x 1).val := rfl
  refine (congrArg (k1_pay1 (F := Ideal) x1 x2) ex).trans ?_
  refine (class_row_apply x1 x2 ⟨(x 0).val, hx0⟩ ⟨(x 2).val, hx2⟩).trans ?_
  unfold blockOf
  rw [dif_pos (by rw [e1]; omega)]
  refine congr (congrArg HAdd.hAdd (congrArg x1 (funext fun a => Fin.ext ?_))) (congrArg x2 (funext fun a => Fin.ext ?_))
  · match a with
    | ⟨0, _⟩ => rfl
    | ⟨1, _⟩ => show (x 2).val = 0 + 1 * (x 2).val; omega
  · match a with
    | ⟨0, _⟩ => rfl
    | ⟨1, _⟩ => show (x 2).val = 0 + 1 * (x 2).val; omega

/-- The two stores read back at one entry of the block: position 0 comes from the first store, position `s ≥ 1` from the
    second at token `s - 1` — each store's value is `blockOf` under its rows, and every entry is under one of them. -/
theorem block_apply (x0 : Vec Ideal S8x196x768 .f32) (x1 : Vec Ideal S1x768 .f32) (x2 : Vec Ideal S197x768 .f32) (y : S8x197x768.Idx) :
    View.canon ([⟨rowsRect, k1_pay2 (F := Ideal) x0 x2⟩, ⟨headRect, k1_pay1 (F := Ideal) x1 x2⟩] : List (View.Piece (Elt Ideal) S8x197x768 .f32)) y
      = blockOf x0 x1 x2 y := by
  refine View.canon_apply_of_pieces (blockOf x0 x1 x2) _ (fun p hp => ?_) y ?_
  · rcases List.mem_cons.mp hp with rfl | hp
    · exact rows_piece x0 x1 x2
    · rcases List.mem_cons.mp hp with rfl | hp
      · exact head_piece x0 x1 x2
      · exact absurd hp List.not_mem_nil
  · have hy0 : (y 0).val < 8 := (y 0).isLt
    have hy1 : (y 1).val < 197 := (y 1).isLt
    have hy2 : (y 2).val < 768 := (y 2).isLt
    by_cases h0 : (y 1).val = 0
    · refine ⟨⟨headRect, k1_pay1 (F := Ideal) x1 x2⟩, by simp, ?_⟩
      rw [Rect.mem_set_unit]
      intro a
      match a with
      | ⟨0, _⟩ => show 0 ≤ (y 0).val ∧ (y 0).val < 0 + 8; omega
      | ⟨1, _⟩ => show 0 ≤ (y 1).val ∧ (y 1).val < 0 + 1; omega
      | ⟨2, _⟩ => show 0 ≤ (y 2).val ∧ (y 2).val < 0 + 768; omega
    · refine ⟨⟨rowsRect, k1_pay2 (F := Ideal) x0 x2⟩, by simp, ?_⟩
      rw [Rect.mem_set_unit]
      intro a
      match a with
      | ⟨0, _⟩ => show 0 ≤ (y 0).val ∧ (y 0).val < 0 + 8; omega
      | ⟨1, _⟩ => show 1 ≤ (y 1).val ∧ (y 1).val < 1 + 196; omega
      | ⟨2, _⟩ => show 0 ≤ (y 2).val ∧ (y 2).val < 0 + 768; omega

/-! ## From the sixteen image blocks to the whole array -/

variable (V : (c : Dev nD) → (b : Ref sig .tc) → Buf (Elt Ideal) ((c : Thread nD τ).loc b))

/-- The block index of each window at grid point `t`: the tokens and the output move with `t` along the images, the
    class token and the positional embedding stay at block 0. -/
theorem block_indices : ∀ t : Fin cfg1.N, win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- What point `t` writes back is its block of eight images of the assembly of the arrays the region found. -/
theorem flushed_eq (c : Dev nD) (t : Fin cfg1.N) :
    (dat1 V c).flushed 3 t
      = ((cfg1.win 3).blk t).view.read (Elt Ideal) (assemble (V c main_v5) (V c main_arg3) (V c main_arg4)) := by
  show (cfg1.win 3).cut (grid1.coords t) ((dat1 V c).after 3 t) = _
  rw [after1_3]
  unfold outsAt1
  have hb := block_pieces (F := Ideal) c (grid1.coords t) (ms1_0 t) (hs1_0 t) (ms1_1 t) (hs1_1 t) (ms1_2 t) (hs1_2 t) (ms1_3 t) (hs1_3 t)
    (iblk1 V c 0 t) (iblk1 V c 1 t) (iblk1 V c 2 t)
  obtain ⟨e0, e1, e2, e3, e4, e5, e6, e7, e8, e9⟩ := block_indices t
  funext j
  have hj0 : (j 0).val < 8 := (j 0).isLt
  have hj1 : (j 1).val < 197 := (j 1).isLt
  have hj2 : (j 2).val < 768 := (j 2).isLt
  refine (congrFun hb j).trans ?_
  refine (block_apply (iblk1 V c 0 t) (iblk1 V c 1 t) (iblk1 V c 2 t) j).trans ?_
  show _ = assemble (V c main_v5) (V c main_arg3) (V c main_arg4) (((cfg1.win 3).blk t).view.emb j)
  unfold assemble blockOf
  have em0 : ((((cfg1.win 3).blk t).view.emb j) 0).val = t.val * 8 + (j 0).val := by
    show win1_3.index t (0 : Fin 3) * 8 + 1 * (j 0).val = _; omega
  have em1 : ((((cfg1.win 3).blk t).view.emb j) 1).val = (j 1).val := by
    show win1_3.index t (1 : Fin 3) * 197 + 1 * (j 1).val = _; omega
  have em2 : ((((cfg1.win 3).blk t).view.emb j) 2).val = (j 2).val := by
    show win1_3.index t (2 : Fin 3) * 768 + 1 * (j 2).val = _; omega
  by_cases h0 : (j 1).val = 0
  · rw [dif_pos h0, dif_pos (em1.trans h0)]
    refine congr (congrArg HAdd.hAdd ?_) ?_
    · -- the class token's one block is the class token
      show V c main_arg3 (((cfg1.win 1).blk t).view.emb (ix2 ⟨0, Nat.one_pos⟩ ⟨(j 2).val, hj2⟩)) = _
      refine congrArg (V c main_arg3) (funext fun a => Fin.ext ?_)
      match a with
      | ⟨0, _⟩ => show win1_1.index t (0 : Fin 2) * 1 + 1 * 0 = 0; omega
      | ⟨1, _⟩ => show win1_1.index t (1 : Fin 2) * 768 + 1 * (j 2).val = ((((cfg1.win 3).blk t).view.emb j) 2).val; omega
    · -- the positional embedding's one block is the embedding
      show V c main_arg4 (((cfg1.win 2).blk t).view.emb (ix2 ⟨0, by decide⟩ ⟨(j 2).val, hj2⟩)) = _
      refine congrArg (V c main_arg4) (funext fun a => Fin.ext ?_)
      match a with
      | ⟨0, _⟩ => show win1_2.index t (0 : Fin 2) * 197 + 1 * 0 = 0; omega
      | ⟨1, _⟩ => show win1_2.index t (1 : Fin 2) * 768 + 1 * (j 2).val = ((((cfg1.win 3).blk t).view.emb j) 2).val; omega
  · rw [dif_neg h0, dif_neg (fun h => h0 (em1.symm.trans h))]
    refine congr (congrArg HAdd.hAdd ?_) ?_
    · -- image a of the token block at t is image 8 t + a of the array
      show V c main_v5 (((cfg1.win 0).blk t).view.emb (ix3 ⟨(j 0).val, hj0⟩ ⟨(j 1).val - 1, by omega⟩ ⟨(j 2).val, hj2⟩)) = _
      refine congrArg (V c main_v5) (funext fun a => Fin.ext ?_)
      match a with
      | ⟨0, _⟩ => show win1_0.index t (0 : Fin 3) * 8 + 1 * (j 0).val = ((((cfg1.win 3).blk t).view.emb j) 0).val; omega
      | ⟨1, _⟩ => show win1_0.index t (1 : Fin 3) * 196 + 1 * ((j 1).val - 1) = ((((cfg1.win 3).blk t).view.emb j) 1).val - 1; omega
      | ⟨2, _⟩ => show win1_0.index t (2 : Fin 3) * 768 + 1 * (j 2).val = ((((cfg1.win 3).blk t).view.emb j) 2).val; omega
    · show V c main_arg4 (((cfg1.win 2).blk t).view.emb (ix2 ⟨(j 1).val, hj1⟩ ⟨(j 2).val, hj2⟩)) = _
      refine congrArg (V c main_arg4) (funext fun a => Fin.ext ?_)
      match a with
      | ⟨0, _⟩ => show win1_2.index t (0 : Fin 2) * 197 + 1 * (j 1).val = ((((cfg1.win 3).blk t).view.emb j) 1).val; omega
      | ⟨1, _⟩ => show win1_2.index t (1 : Fin 2) * 768 + 1 * (j 2).val = ((((cfg1.win 3).blk t).view.emb j) 2).val; omega

/-- An index of the output array is in point `t`'s block iff each coordinate is in the block's range on its axis. -/
theorem mem_block (t : Fin cfg1.N) (i : S128x197x768.Idx) :
    i ∈ ((cfg1.win 3).blk t).view.set ↔ ∀ a : Fin 3, win1_3.index t a * S8x197x768.size a ≤ (i a).val
      ∧ (i a).val < win1_3.index t a * S8x197x768.size a + S8x197x768.size a := by
  show i ∈ ((View.whole main_v6).slice (win1_3.rect t)).set ↔ _
  rw [View.set_slice_whole, Rect.mem_set_unit]
  exact Iff.rfl

/-- Image `n` of the output lies in the block of point `n / 8`. -/
theorem covered (i : S128x197x768.Idx) :
    ∃ t : Fin cfg1.N, (cfg1.win 3).flush t = true ∧ i ∈ ((cfg1.win 3).blk t).view.set := by
  have hi0 : (i 0).val < 128 := (i 0).isLt
  have hi1 : (i 1).val < 197 := (i 1).isLt
  have hi2 : (i 2).val < 768 := (i 2).isLt
  have hq : (i 0).val / 8 < cfg1.N := by rw [show cfg1.N = 16 from N_1]; omega
  obtain ⟨-, -, -, -, -, -, -, e7, e8, e9⟩ := block_indices ⟨(i 0).val / 8, hq⟩
  have e7' : win1_3.index ⟨(i 0).val / 8, hq⟩ (0 : Fin 3) = (i 0).val / 8 := e7
  refine ⟨⟨(i 0).val / 8, hq⟩, flush1_3 _, ?_⟩
  rw [mem_block]
  intro a
  match a with
  | ⟨0, _⟩ =>
    show win1_3.index ⟨(i 0).val / 8, hq⟩ (0 : Fin 3) * 8 ≤ (i 0).val
      ∧ (i 0).val < win1_3.index ⟨(i 0).val / 8, hq⟩ (0 : Fin 3) * 8 + 8
    omega
  | ⟨1, _⟩ =>
    show win1_3.index ⟨(i 0).val / 8, hq⟩ (1 : Fin 3) * 197 ≤ (i 1).val
      ∧ (i 1).val < win1_3.index ⟨(i 0).val / 8, hq⟩ (1 : Fin 3) * 197 + 197
    omega
  | ⟨2, _⟩ =>
    show win1_3.index ⟨(i 0).val / 8, hq⟩ (2 : Fin 3) * 768 ≤ (i 2).val
      ∧ (i 2).val < win1_3.index ⟨(i 0).val / 8, hq⟩ (2 : Fin 3) * 768 + 768
    omega

/-- THE OUTPUT ARRAY after the region: the assembly of the three arrays the region found. -/
theorem assembled (c : Dev nD) :
    (dat1 V c).arrAt 3 cfg1.N = assemble (V c main_v5) (V c main_arg3) (V c main_arg4) :=
  (dat1 V c).arrAt_eq_of_cover 3 _ (fun t _ => flushed_eq V c t) covered

end Cert.KernelIdeal.Assembly

end
-- ==== Proof.Embedded.lean ====
/-
  The kernel program's result is the patch embedding of its arguments.

  @main cuts the images into patches (three layout operations: the array `patches`), flattens image and patch into one
  row axis, runs the projection region over the rows, views the tokens again as [image, patch, hidden] and runs the
  assembly region. Read through the buffer contents at each boundary: region 0 finds the flattened patches, the weight
  and the bias, and leaves `project` of them; the reshape in between changes no value; region 1 finds the tokens, the
  class token and the positional embedding, and leaves `assemble` of them; and flattening and un-flattening cancel
  (`assemble_project`), so the result array ends at `embed` of the patches and the other four arguments.
-/
import proofs.«168539_j32762010534327_1_alg».proof.Proof.KernelLaunched
import proofs.«168539_j32762010534327_1_alg».proof.Proof.Projection
import proofs.«168539_j32762010534327_1_alg».proof.Proof.Assembly

set_option maxRecDepth 16384

noncomputable section

namespace Cert.KernelIdeal.Embedded

open Cert.KernelIdeal Cert.KernelIdeal.Gen
open Idealize.ShloMosaic Idealize.ShloMosaic.TcCoe Idealize.ShloMosaic.StableHlo Idealize.SL.Sem
open Idealize.ShloMosaic.Pipeline (Dat)
open Cert.PatchEmbed

variable (m : (ℓ : Loc nD τ sig) → Buf (Elt Ideal) ℓ) (ρ : Dev nD → PrngReg)

/-- The images cut into patches: [128, 3, 224, 224] viewed as [128, 3, 14, 16, 14, 16], the two patch coordinates brought
    forward, and each patch's 3 x 16 x 16 values flattened. -/
def patches (x : FVec Ideal S128x3x224x224 .f32) : FVec Ideal S128x196x768 .f32 :=
  shapeCast S128x196x768
    (transpose S128x14x14x3x16x16 [0, 2, 4, 1, 3, 5]
      (shapeCast S128x3x14x16x14x16 x shapeCasts_S128x3x224x224_S128x3x14x16x14x16)
      transposes_S128x3x14x16x14x16_S128x14x14x3x16x16_0_2_4_1_3_5)
    shapeCasts_S128x14x14x3x16x16_S128x196x768

/-! ## What each region finds and leaves -/

/-- Region 0 finds the patches with image and patch flattened into one row axis, -/
theorem entry0_rows (c : Dev nD) :
    V1 m ρ c main_v3 = shapeCast S25088x768 (patches (m ((c : Thread nD τ).loc main_arg0))) shapeCasts_S128x196x768_S25088x768 := by
  show StableHlo.after hostOps0 (W0 m ρ c) (Proc.devRef .tc main_v3) = _
  after_results <;> rfl
/-- the weight -/
theorem entry0_weight (c : Dev nD) : V1 m ρ c main_arg1 = m ((c : Thread nD τ).loc main_arg1) := by
  show StableHlo.after hostOps0 (W0 m ρ c) (Proc.devRef .tc main_arg1) = _
  after_results <;> rfl
/-- and the bias, as launched, -/
theorem entry0_bias (c : Dev nD) : V1 m ρ c main_arg2 = m ((c : Thread nD τ).loc main_arg2) := by
  show StableHlo.after hostOps0 (W0 m ρ c) (Proc.devRef .tc main_arg2) = _
  after_results <;> rfl
/-- and leaves their projection in its output array. -/
theorem exit0_tokens (c : Dev nD) :
    W2 m ρ c (Proc.devRef .tc main_v4) = project (V1 m ρ c main_v3) (V1 m ρ c main_arg1) (V1 m ρ c main_arg2) :=
  (W2_arr m ρ c 3).trans (Projection.projected (V1 m ρ) c)

/-- Region 1 finds the tokens viewed as [image, patch, hidden], -/
theorem entry1_tokens (c : Dev nD) :
    V3 m ρ c main_v5 = shapeCast S128x196x768 (W2 m ρ c (Proc.devRef .tc main_v4)) shapeCasts_S25088x768_S128x196x768 := by
  show StableHlo.after hostOps1 (W2 m ρ c) (Proc.devRef .tc main_v5) = _
  after_results <;> rfl
/-- the class token -/
theorem entry1_class (c : Dev nD) : V3 m ρ c main_arg3 = m ((c : Thread nD τ).loc main_arg3) :=
  ((W4_arr m ρ c 1).trans (((dat1 (V3 m ρ) c).arrAt_in 1 rfl _).trans (A_eq1 (V3 m ρ) c 1))).symm.trans (W4_main_arg3 m ρ c)
/-- and the positional embedding, as launched (an input window's array is not written by its region), -/
theorem entry1_pos (c : Dev nD) : V3 m ρ c main_arg4 = m ((c : Thread nD τ).loc main_arg4) :=
  ((W4_arr m ρ c 2).trans (((dat1 (V3 m ρ) c).arrAt_in 2 rfl _).trans (A_eq1 (V3 m ρ) c 2))).symm.trans (W4_main_arg4 m ρ c)

/-- THE RESULT ARRAY at the end of @main: the patch embedding of the arguments. -/
theorem result_eq (c : Dev nD) :
    W4 m ρ c (Proc.devRef .tc main_v6)
      = embed (patches (m ((c : Thread nD τ).loc main_arg0))) (m ((c : Thread nD τ).loc main_arg1)) (m ((c : Thread nD τ).loc main_arg2))
          (m ((c : Thread nD τ).loc main_arg3)) (m ((c : Thread nD τ).loc main_arg4)) := by
  refine (W4_arr m ρ c 3).trans ((Assembly.assembled (V3 m ρ) c).trans ?_)
  rw [entry1_tokens, entry1_class, entry1_pos, exit0_tokens, entry0_rows, entry0_weight, entry0_bias]
  exact assemble_project _ _ _ _ _ _ _

/-- The run of @main with its result named: every weakly fair execution terminates, nothing faulting, the result array at
    the patch embedding of the arguments and the arguments as launched. -/
theorem run : θ_run defs (onTc (τ := τ) (main (F := Ideal))) ⟨m, fun _ => 0, ρ⟩ (fun r => ∀ c : Dev nD,
      r.2.mem ((c.tc : Thread nD τ).loc main_v6)
        = embed (patches (m ((c : Thread nD τ).loc main_arg0))) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Launched.run_main m ρ)

end Cert.KernelIdeal.Embedded

end
-- ==== Proof.ReferenceValue.lean ====
/-
  The reference program's result is the patch embedding of its arguments.

  Read one operation at a time: the last addition adds `pos[s, h]` at every index (the two broadcasts of the positional
  embedding only repeat it over the images); the concatenation along the sequence axis puts the broadcast class
  token at position 0 and token `s - 1` at position `s ≥ 1`; a token is the contraction of a patch's 768 values with row
  `h` of the weight, plus the broadcast bias. The three layout operations in front (cutting the images into patches)
  are kept as one array `P`, which the specification takes as given.
-/
import proofs.«168539_j32762010534327_1_alg».proof.Proof.Gen.ReferenceIdeal.Read
import proofs.«168539_j32762010534327_1_alg».proof.Proof.PatchEmbed

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Cert.PatchEmbed

/-- The reference's last stage, as a function of the five arguments, is `embed` of the patches (its stage `val_main_v2`)
    and the other four arguments. -/
theorem reference_eq (x0 : (⟨S128x3x224x224, .f32⟩ : BufTy).Contents (Elt Ideal)) (x1 : (⟨S768x768, .f32⟩ : BufTy).Contents (Elt Ideal))
    (x2 : (⟨S768, .f32⟩ : BufTy).Contents (Elt Ideal)) (x3 : (⟨S1x768, .f32⟩ : BufTy).Contents (Elt Ideal))
    (x4 : (⟨S197x768, .f32⟩ : BufTy).Contents (Elt Ideal)) :
    val_main_v12 (F := Ideal) x0 x1 x2 x3 x4 = embed (val_main_v2 (F := Ideal) x0) x1 x2 x3 x4 := by
  funext i
  have hi0 : (i 0).val < 128 := (i 0).isLt
  have hi1 : (i 1).val < 197 := (i 1).isLt
  have hi2 : (i 2).val < 768 := (i 2).isLt
  rw [val_main_v12_apply, val_main_v11_apply, val_main_v10_apply, Ideal.addf_def]
  unfold embed
  -- the positional embedding is read at (s, h)
  have hpos : idx_main_v10 (idx_main_v11 i) = ix2 ⟨(i 1).val, (i 1).isLt⟩ ⟨(i 2).val, (i 2).isLt⟩ :=
    funext fun a => Fin.ext (by match a with | ⟨0, _⟩ => rfl | ⟨1, _⟩ => rfl)
  rw [hpos]
  refine congrArg (· + x4 _) ?_
  unfold val_main_v9
  by_cases h0 : (i 1).val = 0
  · -- position 0: the first piece, the class token broadcast over the images
    rw [dif_pos h0]
    refine (concatenate_pair_apply_left (t := S128x197x768) (s₁ := S128x1x768) (s₂ := S128x196x768) 1 _ _ _ i rfl (ix3 ⟨(i 0).val, hi0⟩ ⟨0, Nat.one_pos⟩ ⟨(i 2).val, hi2⟩) ?_).trans ?_
    · intro b
      match b with
      | ⟨0, _⟩ => rfl
      | ⟨1, _⟩ => exact h0.symm
      | ⟨2, _⟩ => rfl
    rw [val_main_v8_apply, val_main_v7_apply]
    exact congrArg x3 (funext fun a => Fin.ext (by match a with | ⟨0, _⟩ => rfl | ⟨1, _⟩ => rfl))
  · -- position s ≥ 1: the second piece at s - 1, the projected patch plus the bias
    rw [dif_neg h0]
    refine (concatenate_pair_apply_right (t := S128x197x768) (s₁ := S128x1x768) (s₂ := S128x196x768) 1 _ _ _ i rfl rfl
      (ix3 ⟨(i 0).val, hi0⟩ ⟨(i 1).val - 1, by omega⟩ ⟨(i 2).val, hi2⟩) ?_ ?_).trans ?_
    · intro b hb
      match b with
      | ⟨0, _⟩ => rfl
      | ⟨1, _⟩ => exact absurd rfl hb
      | ⟨2, _⟩ => rfl
    · show (i 1).val - 1 + 1 = (i 1).val
      omega
    rw [val_main_v6_apply, val_main_v5_apply, val_main_v4_apply, val_main_v3_apply, Ideal.addf_def]
    unfold token
    have el : ∀ k : Fin 768, lidx_main_v3 (ix3 ⟨(i 0).val, hi0⟩ ⟨(i 1).val - 1, by omega⟩ ⟨(i 2).val, hi2⟩) k
        = ix3 ⟨(i 0).val, (i 0).isLt⟩ ⟨(i 1).val - 1, by omega⟩ k :=
      fun k => funext fun a => Fin.ext (by match a with | ⟨0, _⟩ => rfl | ⟨1, _⟩ => rfl | ⟨2, _⟩ => rfl)
    have er : ∀ k : Fin 768, ridx_main_v3 (ix3 ⟨(i 0).val, hi0⟩ ⟨(i 1).val - 1, by omega⟩ ⟨(i 2).val, hi2⟩) k
        = ix2 ⟨(i 2).val, (i 2).isLt⟩ k :=
      fun k => funext fun a => Fin.ext (by match a with | ⟨0, _⟩ => rfl | ⟨1, _⟩ => rfl)
    have eb : idx_main_v4 (idx_main_v5 (ix3 ⟨(i 0).val, hi0⟩ ⟨(i 1).val - 1, by omega⟩ ⟨(i 2).val, hi2⟩))
        = ix1 ⟨(i 2).val, (i 2).isLt⟩ :=
      funext fun a => Fin.ext (by match a with | ⟨0, _⟩ => rfl)
    simp only [el, er, eb]
    rfl

end Cert.ReferenceIdeal.RefValue

end
-- ==== Proof.lean ====
/-
  The certificate of a vision transformer's patch embedding: a Pallas program of two kernels (the linear projection of
  the flattened patch rows; the assembly of the sequences) against the jnp reference
  `(concatenate [class token, einsum(patches, W) + b]) + pos`.

  Both programs cut the images into patches by the same three layout operations, kept here as one array `P`. On the
  extended reals both results are, at image `n`, position `s`, hidden coordinate `h`,

      embed[n, 0, h]     = cls[0, h] + pos[0, h],
      embed[n, s + 1, h] = ((∑ k, P[n, s, k] · W[h, k]) + b[h]) + pos[s + 1, h]        (Proof/PatchEmbed.lean):

  the kernel's narrowing of both matrix factors is the identity there, its transposed weight read at (k, h) is the
  weight at (h, k), its product starts from zero, and flattening (image, patch) into one row axis before the projection
  and un-flattening after it cancel; the reference's concatenation puts the class token at position 0 and token `s` at
  `s + 1`. The terms are the same in the same order on both sides, so no algebraic law and no finiteness is used.

  The kernel side is read off the run of @main region by region (Proof/Projection.lean, Proof/Assembly.lean,
  Proof/Embedded.lean), the reference side off its run one operation at a time (Proof/ReferenceValue.lean). The ideal
  pass rewrote nothing, so `preserves` states nothing.
-/
import proofs.«168539_j32762010534327_1_alg».proof.Defs
import proofs.«168539_j32762010534327_1_alg».proof.Proof.Gen.Kernel
import proofs.«168539_j32762010534327_1_alg».proof.Proof.Gen.Kernel.Skeleton
import proofs.«168539_j32762010534327_1_alg».proof.Proof.Gen.Kernel.Launch
import proofs.«168539_j32762010534327_1_alg».proof.Proof.Gen.Kernel.Points
import proofs.«168539_j32762010534327_1_alg».proof.Proof.Gen.Kernel.Frame
import proofs.«168539_j32762010534327_1_alg».proof.Proof.Gen.KernelIdeal
import proofs.«168539_j32762010534327_1_alg».proof.Proof.Gen.KernelIdeal.Skeleton
import proofs.«168539_j32762010534327_1_alg».proof.Proof.Gen.KernelIdeal.Launch
import proofs.«168539_j32762010534327_1_alg».proof.Proof.Gen.KernelIdeal.Points
import proofs.«168539_j32762010534327_1_alg».proof.Proof.Gen.KernelIdeal.Frame
import proofs.«168539_j32762010534327_1_alg».proof.Proof.Gen.ReferenceIdeal
import proofs.«168539_j32762010534327_1_alg».proof.Proof.Gen.Pre_finite_inputs
import proofs.«168539_j32762010534327_1_alg».proof.Proof.Gen.ReferenceIdeal.Run
import proofs.«168539_j32762010534327_1_alg».proof.Proof.Gen.ReferenceIdeal.Read
import proofs.«168539_j32762010534327_1_alg».proof.Proof.Embedded
import proofs.«168539_j32762010534327_1_alg».proof.Proof.ReferenceValue
import Idealize.ShloMosaic.Adequacy
import Idealize.ShloMosaic.Init

noncomputable section

namespace Cert.Proof

open Idealize.ShloMosaic Idealize.ShloMosaic.TcCoe Idealize.SL.Sem

/-- The two programs cut the images into patches by the same operations. -/
theorem patches_eq (x : FVec Ideal Cert.KernelIdeal.S128x3x224x224 .f32) :
    Cert.ReferenceIdeal.Read.val_main_v2 (F := Ideal) x = Cert.KernelIdeal.Embedded.patches x := rfl

/-- The word-level kernel runs and keeps its arguments. -/
theorem frame_kernel : Cert.frame_Kernel := fun m ρ _ => Cert.Kernel.Gen.frame m ρ
/-- So does the idealized kernel, -/
theorem frame_kernelIdeal : Cert.frame_KernelIdeal := fun m ρ _ => Cert.KernelIdeal.Gen.frame m ρ
/-- and the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the five arguments both programs end at the patch embedding of those arguments. -/
theorem algebraic : Cert.algebraic_KernelIdeal_ReferenceIdeal := by
  intro m ρ m' ρ' _ hagree
  refine ⟨_, Cert.KernelIdeal.Embedded.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.reference_eq,
    (hagree c).1, (hagree c).2.1, (hagree c).2.2.1, (hagree c).2.2.2.1, (hagree c).2.2.2.2, patches_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
